-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x128 .f32) (main_arg1 : FVec F S128x128 .f32) (main_arg2 : FVec F S128 .f32) (main_arg3 : FVec F S800000 .f32) (main_arg4 : IVec S800000 32) (main_arg5 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩

abbrev nBuf : Space → Nat
  | .hbm => 51
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S800000x1, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S1x128, .f32⟩
  | .hbm, ⟨50, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v8 : Ref sig .tc := ⟨.hbm, 23, rfl⟩
abbrev main_cst_4 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_5 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S50000x128, .f32⟩
  | .hbm, ⟨21, _⟩ => ⟨S50000x128, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S800000x1, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S50000, .f32⟩
  | .hbm, ⟨41, _⟩ => ⟨S800000x1, .i32⟩
  | .hbm, ⟨42, _⟩ => ⟨S50000, .f32⟩
  | .hbm, ⟨43, _⟩ => ⟨S_, .f32⟩
  | .hbm, ⟨44, _⟩ => ⟨S_, .f32⟩
  | .hbm, ⟨45, _⟩ => ⟨S50000, .f32⟩
  | .hbm, ⟨46, _⟩ => ⟨S50000, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000x1, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_call1_v0 : Ref sig .tc := ⟨.hbm, 44, rfl⟩
abbrev main_call1_v1 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.LibColumns.lean ====
/-
  Columns and rows of rank-2 arrays read at an element, for any sizes, and the host's plain matrix product.

    * a length-`A` vector laid as a column `[A, 1]` — by a reshape or by a `broadcast_in_dim` along axis 0 — holds, at
      `(p, u)`, the vector's entry `p`: the two layouts are one function;
    * a length-`B` vector laid as a row `[1, B]` — by a reshape or by a `broadcast_in_dim` along axis 1 — holds, at
      `(u, q)`, the vector's entry `q`: again one function;
    * a column `[A, 1]` spread over `[A, B]` by `broadcast_in_dim` reads, at `(p, q)`, the column at `(p, 0)`;
    * a row `[1, B]` spread over `[A, B]`, by `broadcast_in_dim` or by a vector broadcast, reads, at `(p, q)`, the row
      at `(0, q)`;
    * the host's `dot_general` with the plain `[M, K] × [K, N]` dimension numbers, at the extended reals, reads at
      `(p, q)` the sum over `k` of `a(p, k) · b(k, q)`.
-/
import Idealize.ShloMosaic.PureOps.Ideal.Laws
import Idealize.ShloMosaic.Lib.ValueIdx
import Idealize.ShloMosaic.Lib.Pipeline.Value

noncomputable section

namespace Cert.Lib.Columns

open Idealize.ShloMosaic Idealize.ShloMosaic.ValueIdx

section Layout

variable {A B : Nat} {α : Type}

/-- A vector put on axis 0 of a column by `broadcast_in_dim` reads, at `(p, u)`, its entry `p`. -/
theorem columnInDim_apply (v : (⟨1, ![A]⟩ : Shape).Idx → α)
    (h : (⟨1, ![A]⟩ : Shape).BroadcastsInDim ⟨2, ![A, 1]⟩ (![0] : Fin 1 → Fin 2)) (hA : A ≠ 1) (p : Fin A) (u : Fin 1) :
    broadcastInDim ⟨2, ![A, 1]⟩ ![0] h v (ix2 p u) = v (ix1 p) := by
  refine broadcastInDim_apply _ h v (ix2 p u) (ix1 p) fun a => ?_
  match a with
  | ⟨0, _⟩ => exact (if_neg hA).symm

/-- A vector reshaped to a column reads, at `(p, u)`, its entry `p`. -/
theorem columnCast_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- The reshape of a vector to a column and its `broadcast_in_dim` along axis 0 are one array. -/
theorem columnCast_eq_inDim (v : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) (hA : A ≠ 1) :
    shapeCast ⟨2, ![A, 1]⟩ v h = broadcastInDim ⟨2, ![A, 1]⟩ ![0] h' v := by
  funext j
  obtain ⟨p, u, rfl⟩ : ∃ (p : Fin A) (u : Fin 1), j = ix2 p u := ⟨j 0, j 1, eq_ix2 j⟩
  rw [columnCast_apply, columnInDim_apply v h' hA]

/-- A vector put on axis 1 of a row by `broadcast_in_dim` reads, at `(u, q)`, its entry `q`. -/
theorem rowInDim_apply (v : (⟨1, ![B]⟩ : Shape).Idx → α)
    (h : (⟨1, ![B]⟩ : Shape).BroadcastsInDim ⟨2, ![1, B]⟩ (![1] : Fin 1 → Fin 2)) (hB : B ≠ 1) (u : Fin 1) (q : Fin B) :
    broadcastInDim ⟨2, ![1, B]⟩ ![1] h v (ix2 u q) = v (ix1 q) := by
  refine broadcastInDim_apply _ h v (ix2 u q) (ix1 q) fun a => ?_
  match a with
  | ⟨0, _⟩ => exact (if_neg hB).symm

/-- A vector reshaped to a row reads, at `(u, q)`, its entry `q`. -/
theorem rowCast_apply (v : (⟨1, ![B]⟩ : Shape).Idx → α) (h : (⟨1, ![B]⟩ : Shape).ShapeCasts ⟨2, ![1, B]⟩) (u : Fin 1) (q : Fin B) :
    shapeCast ⟨2, ![1, B]⟩ v h (ix2 u q) = v (ix1 q) := by
  refine shapeCast_apply v h (ix2 u q) (ix1 q) ?_
  rw [Shape.rowMajor_val_one, Shape.rowMajor_val_two]
  have hu : u.val = 0 := by omega
  show q.val = u.val * B + q.val
  rw [hu]; omega

/-- The reshape of a vector to a row and its `broadcast_in_dim` along axis 1 are one array. -/
theorem rowCast_eq_inDim (v : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) (hB : B ≠ 1) :
    shapeCast ⟨2, ![1, B]⟩ v h = broadcastInDim ⟨2, ![1, B]⟩ ![1] h' v := by
  funext j
  obtain ⟨u, q, rfl⟩ : ∃ (u : Fin 1) (q : Fin B), j = ix2 u q := ⟨j 0, j 1, eq_ix2 j⟩
  rw [rowCast_apply, rowInDim_apply v h' hB]

/-- A column spread along the lanes by `broadcast_in_dim` reads, at `(p, q)`, the column at `(p, 0)`. -/
theorem columnSpread_apply (v : (⟨2, ![A, 1]⟩ : Shape).Idx → α)
    (h : (⟨2, ![A, 1]⟩ : Shape).BroadcastsInDim ⟨2, ![A, B]⟩ (![0, 1] : Fin 2 → Fin 2)) (hA : A ≠ 1) (p : Fin A) (q : Fin B) :
    broadcastInDim ⟨2, ![A, B]⟩ ![0, 1] h v (ix2 p q) = v (ix2 p 0) := by
  refine broadcastInDim_apply _ h v (ix2 p q) (ix2 p 0) fun a => ?_
  match a with
  | ⟨0, _⟩ => exact (if_neg hA).symm
  | ⟨1, _⟩ => exact (if_pos rfl).symm

/-- A row spread down the rows by `broadcast_in_dim` reads, at `(p, q)`, the row at `(0, q)`. -/
theorem rowSpread_apply (v : (⟨2, ![1, B]⟩ : Shape).Idx → α)
    (h : (⟨2, ![1, B]⟩ : Shape).BroadcastsInDim ⟨2, ![A, B]⟩ (![0, 1] : Fin 2 → Fin 2)) (hB : B ≠ 1) (p : Fin A) (q : Fin B) :
    broadcastInDim ⟨2, ![A, B]⟩ ![0, 1] h v (ix2 p q) = v (ix2 0 q) := by
  refine broadcastInDim_apply _ h v (ix2 p q) (ix2 0 q) fun a => ?_
  match a with
  | ⟨0, _⟩ => exact (if_pos rfl).symm
  | ⟨1, _⟩ => exact (if_neg hB).symm

/-- A row spread down the rows by a vector broadcast reads, at `(p, q)`, the row at `(0, q)`. -/
theorem rowBroadcast_apply (v : (⟨2, ![1, B]⟩ : Shape).Idx → α) (h : (⟨2, ![1, B]⟩ : Shape).Broadcasts ⟨2, ![A, B]⟩)
    (hB : B ≠ 1) (p : Fin A) (q : Fin B) : broadcastTo ⟨2, ![A, B]⟩ v h (ix2 p q) = v (ix2 0 q) := by
  refine broadcastTo_apply v h (ix2 p q) (ix2 0 q) fun a => ?_
  match a with
  | ⟨0, _⟩ => exact (if_pos rfl).symm
  | ⟨1, _⟩ => exact (if_neg hB).symm

end Layout

section Dot

variable {M K N : Nat}

/-- The host's plain product at the extended reals, read at `(p, q)`: the sum over the contracted coordinate. -/
theorem plain_dotGeneral_apply {φ₁ φ₂ : FTy} (prec : Option ContractPrecision) (a : FVec Ideal ⟨2, ![M, K]⟩ φ₁)
    (b : FVec Ideal ⟨2, ![K, N]⟩ φ₂) (p : Fin M) (q : Fin N) :
    Host.dotGeneral (DotDims.plain M K N) prec a b (ix2 p q) = ∑ k : Fin K, a (ix2 p k) * b (ix2 k q) := by
  show FloatOps.dotGeneral (DotDims.plain M K N) prec .single a b (ix2 p q) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact (show ((DotDims.plain M K N).lhsIdx (ix2 p q) ((contrEquiv1 (DotDims.plain M K N) K rfl rfl).symm k) 1).val
            = (((contrEquiv1 (DotDims.plain M K N) K rfl rfl).symm k) ⟨0, Nat.one_pos⟩).val from rfl).trans hk)
  have er : (DotDims.plain M K N).rhsIdx (ix2 p q) ((contrEquiv1 (DotDims.plain M K N) K rfl rfl).symm k) = ix2 k q :=
    funext fun a => Fin.ext (by
      match a with
      | ⟨0, _⟩ => exact (show ((DotDims.plain M K N).rhsIdx (ix2 p q) ((contrEquiv1 (DotDims.plain M K N) K rfl rfl).symm k) 0).val
            = (((contrEquiv1 (DotDims.plain M K N) K rfl rfl).symm k) ⟨0, Nat.one_pos⟩).val from rfl).trans hk
      | ⟨1, _⟩ => rfl)
  rw [el, er]

end Dot

end Cert.Lib.Columns

end
-- ==== Proof.Bodies.lean ====
/-
  The two kernel bodies read at one element of their output block, at the extended reals.

  Region 0 (the row scaling): the stored value at `(p, q)` of a `[5000, 128]` block is `x(p, q) · s(p, 0)`: the column
  block `s` is spread along the lanes before the product.
  Region 1 (the product, the destination scaling and the bias): the stored value at `(p, q)` is
  `(∑ₖ a(p, k) · w(k, q)) · s(p, 0) + b(0, q)`: the narrowing of the two operands to bf16 is the identity on extended reals,
  the product accumulates into the zero word, the column `s` is spread along the lanes and the row `b` down the rows.
-/
import proofs.«123008_j16612933501110_1_alg».proof.Proof.Gen.KernelIdeal.Skeleton
import proofs.«123008_j16612933501110_1_alg».proof.Proof.LibRowwise
import proofs.«123008_j16612933501110_1_alg».proof.Proof.LibColumns

noncomputable section

namespace Cert.KernelIdeal.Bodies

open Cert.KernelIdeal Cert.KernelIdeal.Gen Idealize.ShloMosaic Idealize.ShloMosaic.ValueIdx Cert.Lib

/-- The scaling body's stored value at `(p, q)`. -/
theorem scale_at (x : Vec Ideal S5000x128 .f32) (s : Vec Ideal S5000x1 .f32) (p : Fin 5000) (q : Fin 128) :
    k0_pay1 x s (ix2 p q) = x (ix2 p q) * s (ix2 p 0) := by
  unfold k0_pay1
  show x (ix2 p q) * broadcastTo S5000x128 (shapeCast S5000x1 s shapeCasts_S5000x1_S5000x1) broadcasts_S5000x1_S5000x128 (ix2 p q) = _
  rw [shapeCast_self, Rowwise.columnBroadcast_apply _ _ (by decide)]

/-- The kernel's dimension numbers are the plain `[5000, 128] × [128, 128]` product's. -/
theorem dot_plain : dot_S5000x128_S128x128_S5000x128_1_0_0_1_n_n = DotDims.plain 5000 128 128 :=
  Rowwise.eq_plain _ rfl rfl rfl rfl rfl rfl

/-- The product body's stored value at `(p, q)`. -/
theorem product_at (a : Vec Ideal S5000x128 .f32) (w : Vec Ideal S128x128 .f32) (s : Vec Ideal S5000x1 .f32) (b : Vec Ideal S1x128 .f32)
    (p : Fin 5000) (q : Fin 128) :
    k1_pay1 a w s b (ix2 p q) = (∑ k : Fin 128, a (ix2 p k) * w (ix2 k q)) * s (ix2 p 0) + b (ix2 0 q) := by
  unfold k1_pay1
  simp only [shapeCast_self]
  show FloatOps.matmul (F := Ideal) dot_S5000x128_S128x128_S5000x128_1_0_0_1_n_n none (truncf (F := Ideal) .bf16 a bitsLt_bf16_f32)
        (truncf (F := Ideal) .bf16 w bitsLt_bf16_f32) (constant (F := Ideal) S5000x128 .f32 0x00000000#32) (ix2 p q)
      * broadcastTo S5000x128 s broadcasts_S5000x1_S5000x128 (ix2 p q)
      + broadcastTo S5000x128 b broadcasts_S1x128_S5000x128 (ix2 p q) = _
  rw [dot_plain, Rowwise.plain_matmul_zero_apply, Rowwise.columnBroadcast_apply _ _ (by decide),
    Columns.rowBroadcast_apply _ _ (by decide)]
  rfl

end Cert.KernelIdeal.Bodies

end
-- ==== Proof.ScaledRows.lean ====
/-
  What the first pipeline (the row scaling) leaves in its output array, as one function of the two arrays it reads.

  The grid has ten points; point `t` reads rows `5000·t … 5000·t + 4999` of the feature array and of the scale column
  and writes the same rows of the output. The body multiplies each feature row by its row's scale, so block `t` of
  the output is block `t` of `x ⊙ spread(s)` — the features times the column spread along the 128 lanes —, the ten
  blocks tile the `[50000, 128]` array, and the array ends holding that product everywhere.
-/
import proofs.«123008_j16612933501110_1_alg».proof.Proof.Gen.KernelIdeal.Frame
import proofs.«123008_j16612933501110_1_alg».proof.Proof.Bodies
import Idealize.ShloMosaic.Lib.Pipeline.Value

set_option maxRecDepth 16384

noncomputable section

namespace Cert.KernelIdeal.ScaledRows

open Cert.KernelIdeal Cert.KernelIdeal.Gen Idealize.ShloMosaic Idealize.ShloMosaic.TcCoe Idealize.SL.Sem
open Idealize.ShloMosaic.ValueIdx Cert.Lib
open Idealize.ShloMosaic.Pipeline (Dat Cfg Window)

theorem spreadsColumn : S50000x1.BroadcastsInDim S50000x128 (![0, 1] : Fin 2 → Fin S50000x128.rank) := by decide

/-- The feature rows each multiplied by its entry of a `[50000, 1]` column. -/
def rowScaled (x : FVec Ideal S50000x128 .f32) (s : FVec Ideal S50000x1 .f32) : FVec Ideal S50000x128 .f32 :=
  mulf x (broadcastInDim S50000x128 ![0, 1] spreadsColumn s)

/-- At `(P, q)` it is `x(P, q) · s(P, 0)`. -/
theorem rowScaled_at (x : FVec Ideal S50000x128 .f32) (s : FVec Ideal S50000x1 .f32) (P : Fin 50000) (q : Fin 128) :
    rowScaled x s (ix2 P q) = x (ix2 P q) * s (ix2 P 0) := by
  unfold rowScaled
  show x (ix2 P q) * broadcastInDim S50000x128 ![0, 1] _ s (ix2 P q) = _
  rw [Columns.columnSpread_apply _ _ (by decide)]

/-- One element of a block against one element of the array: if the block's row `p` is the array's row `P` (the
    features' and the column's alike), the body's value at `(p, q)` is the scaled array's at `(P, q)`. -/
theorem point (X : FVec Ideal S50000x128 .f32) (S : FVec Ideal S50000x1 .f32) (x : Vec Ideal S5000x128 .f32) (s : Vec Ideal S5000x1 .f32)
    (p : Fin 5000) (q : Fin 128) (P : Fin 50000) (hx : x (ix2 p q) = X (ix2 P q)) (hs : s (ix2 p 0) = S (ix2 P 0)) :
    k0_pay1 x s (ix2 p q) = rowScaled X S (ix2 P q) := by
  rw [Bodies.scale_at, rowScaled_at, hx, hs]

variable (V : (c : Dev nD) → (b : Ref sig .tc) → Buf (Elt Ideal) ((c : Thread nD τ).loc b))

theorem origin : (![0, 0] : Fin 2 → Nat) = fun _ => 0 := funext fun a => by fin_cases a <;> rfl

/-- The three index maps over the grid: every window's block row is the point's number, its block column 0. -/
theorem index_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 ∧ t.val < 10 :=
  (by decide +kernel : ∀ t : Fin grid0.N, _)

/-- What point `t` writes back is block `t` of the scaled array. -/
theorem flushed_eq (c : Dev nD) (t : Fin cfg0.N) :
    (dat0 V c).flushed 2 t = ((cfg0.win 2).blk t).view.read (Elt Ideal) (rowScaled (V c main_arg0) (V c main_v11)) := by
  show (cfg0.win 2).cut (grid0.coords t) ((dat0 V c).after 2 t) = _
  rw [after0_2]
  unfold out0_2
  rw [View.canon_unit_zero origin]
  simp only [View.ld_unit_zero (S := S5000x128) origin, View.ld_unit_zero (S := S5000x1) origin]
  obtain ⟨e00, e01, e10, e11, e20, e21, ht⟩ := index_facts t
  funext j
  obtain ⟨p, q, rfl⟩ : ∃ (p : Fin 5000) (q : Fin 128), j = ix2 p q := ⟨j 0, j 1, eq_ix2 (n0 := 5000) (n1 := 128) j⟩
  have hP : t.val * 5000 + p.val < 50000 := by omega
  have h2 : ((cfg0.win 2).blk t).view.emb (ix2 p q) = ix2 (⟨t.val * 5000 + p.val, hP⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  have h0 : ((cfg0.win 0).blk t).view.emb (ix2 p q) = ix2 (⟨t.val * 5000 + p.val, hP⟩ : Fin 50000) q := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * q.val = q.val; omega
  have h1 : ((cfg0.win 1).blk t).view.emb (ix2 p (0 : Fin 1)) = ix2 (⟨t.val * 5000 + p.val, hP⟩ : Fin 50000) (0 : Fin 1) := by
    funext a; apply Fin.ext
    match a with
    | ⟨0, _⟩ => show win0_1.index t (0 : Fin 2) * 5000 + 1 * p.val = t.val * 5000 + p.val; omega
    | ⟨1, _⟩ => show win0_1.index t (1 : Fin 2) * 1 + 1 * 0 = 0; omega
  show k0_pay1 (iblk0 V c 0 t) (iblk0 V c 1 t) (ix2 p q) = rowScaled (V c main_arg0) (V c main_v11) (((cfg0.win 2).blk t).view.emb (ix2 p q))
  rw [h2]
  refine point (V c main_arg0) (V c main_v11) (iblk0 V c 0 t) (iblk0 V c 1 t) p q ⟨t.val * 5000 + p.val, hP⟩ ?_ ?_
  · show V c main_arg0 (((cfg0.win 0).blk t).view.emb (ix2 p q)) = _
    rw [h0]
  · show V c main_v11 (((cfg0.win 1).blk t).view.emb (ix2 p (0 : Fin 1))) = _
    rw [h1]

/-- An index is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v15).slice (win0_2.rect t)).set ↔ _
  rw [View.set_slice_whole, Rect.mem_set_unit]
  exact Iff.rfl

/-- Row `r` lies in the block of point `r / 5000`: the ten blocks cover the array. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨_, _, _, _, e20, e21, _⟩ := index_facts ⟨(i 0).val / 5000, ht⟩
  refine ⟨⟨(i 0).val / 5000, ht⟩, flush0_2 _, ?_⟩
  rw [mem_blk]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e21]; omega

/-- THE OUTPUT ARRAY after the ten points: the scaled array, everywhere. -/
theorem final (c : Dev nD) : (dat0 V c).arrAt 2 cfg0.N = rowScaled (V c main_arg0) (V c main_v11) :=
  (dat0 V c).arrAt_eq_of_cover 2 _ (fun t _ => flushed_eq V c t) cover

end Cert.KernelIdeal.ScaledRows

end
-- ==== Proof.ProductRows.lean ====
/-
  What the second pipeline (product, destination scaling, bias) leaves in its output array, as one function of the four
  arrays it reads.

  The grid has ten points; point `t` reads rows `5000·t … 5000·t + 4999` of the aggregated features and of the scale
  column, the whole `[128, 128]` weight matrix and the whole `[1, 128]` bias row, and writes the same rows of the output.
  A row of a matrix product depends only on the same row of the left factor, so block `t` of the output is block `t`
  of `(agg · w) ⊙ spread(s) + spread(b)` computed on the WHOLE arrays: at `(P, q)`,
  `(∑ₖ agg(P, k) · w(k, q)) · s(P, 0) + b(0, q)`. The ten blocks tile the `[50000, 128]` array.
-/
import proofs.«123008_j16612933501110_1_alg».proof.Proof.Gen.KernelIdeal.Frame
import proofs.«123008_j16612933501110_1_alg».proof.Proof.Bodies
import Idealize.ShloMosaic.Lib.Pipeline.Value

set_option maxRecDepth 16384

noncomputable section

namespace Cert.KernelIdeal.ProductRows

open Cert.KernelIdeal Cert.KernelIdeal.Gen Idealize.ShloMosaic Idealize.ShloMosaic.TcCoe Idealize.SL.Sem
open Idealize.ShloMosaic.ValueIdx Cert.Lib
open Idealize.ShloMosaic.Pipeline (Dat Cfg Window)

theorem spreadsColumn : S50000x1.BroadcastsInDim S50000x128 (![0, 1] : Fin 2 → Fin S50000x128.rank) := by decide
theorem spreadsRow : S1x128.BroadcastsInDim S50000x128 (![0, 1] : Fin 2 → Fin S50000x128.rank) := by decide

/-- The whole-array form of the second pipeline: the host's plain product of the aggregated features with the
    weights, each row times its entry of the scale column, plus the bias row. -/
def scaledProduct (agg : FVec Ideal S50000x128 .f32) (w : FVec Ideal S128x128 .f32) (b : FVec Ideal S1x128 .f32)
    (s : FVec Ideal S50000x1 .f32) : FVec Ideal S50000x128 .f32 :=
  addf (mulf (Host.dotGeneral (DotDims.plain 50000 128 128) none agg w) (broadcastInDim S50000x128 ![0, 1] spreadsColumn s))
    (broadcastInDim S50000x128 ![0, 1] spreadsRow b)

/-- At `(P, q)` it is `(∑ₖ agg(P, k) · w(k, q)) · s(P, 0) + b(0, q)`. -/
theorem scaledProduct_at (agg : FVec Ideal S50000x128 .f32) (w : FVec Ideal S128x128 .f32) (b : FVec Ideal S1x128 .f32)
    (s : FVec Ideal S50000x1 .f32) (P : Fin 50000) (q : Fin 128) :
    scaledProduct agg w b s (ix2 P q) = (∑ k : Fin 128, agg (ix2 P k) * w (ix2 k q)) * s (ix2 P 0) + b (ix2 0 q) := by
  unfold scaledProduct
  show Host.dotGeneral (DotDims.plain 50000 128 128) none agg w (ix2 P q) * broadcastInDim S50000x128 ![0, 1] spreadsColumn s (ix2 P q)
      + broadcastInDim S50000x128 ![0, 1] spreadsRow b (ix2 P q) = _
  rw [Columns.plain_dotGeneral_apply, Columns.columnSpread_apply _ _ (by decide), Columns.rowSpread_apply _ _ (by decide)]

/-- One element of a block against one element of the arrays: if the block's row `p` is the arrays' row `P` (of the
    aggregated features and of the column) and the weight and bias blocks are the whole arrays, the body's value at
    `(p, q)` is the whole-array form's at `(P, q)`. -/
theorem point (A : FVec Ideal S50000x128 .f32) (W : FVec Ideal S128x128 .f32) (B : FVec Ideal S1x128 .f32) (S : FVec Ideal S50000x1 .f32)
    (a : Vec Ideal S5000x128 .f32) (w : Vec Ideal S128x128 .f32) (b : Vec Ideal S1x128 .f32) (s : Vec Ideal S5000x1 .f32)
    (p : Fin 5000) (q : Fin 128) (P : Fin 50000) (ha : ∀ k : Fin 128, a (ix2 p k) = A (ix2 P k)) (hw : ∀ k : Fin 128, w (ix2 k q) = W (ix2 k q))
    (hb : b (ix2 0 q) = B (ix2 0 q)) (hs : s (ix2 p 0) = S (ix2 P 0)) :
    k1_pay1 a w s b (ix2 p q) = scaledProduct A W B S (ix2 P q) := by
  rw [Bodies.product_at, scaledProduct_at, hb, hs]
  refine congrArg (fun z => z * S (ix2 P 0) + B (ix2 0 q)) (Finset.sum_congr rfl fun k _ => ?_)
  rw [ha k, hw k]

variable (V : (c : Dev nD) → (b : Ref sig .tc) → Buf (Elt Ideal) ((c : Thread nD τ).loc b))

theorem origin : (![0, 0] : Fin 2 → Nat) = fun _ => 0 := funext fun a => by fin_cases a <;> rfl

/-- The five index maps over the grid: the row-blocked windows' block row is the point's number, the weight's and the
    bias's block is block `(0, 0)` at every point. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 ∧ t.val < 10 :=
  (by decide +kernel : ∀ t : Fin grid1.N, _)

/-- What point `t` writes back is block `t` of the whole-array form. -/
theorem flushed_eq (c : Dev nD) (t : Fin cfg1.N) :
    (dat1 V c).flushed 4 t = ((cfg1.win 4).blk t).view.read (Elt Ideal)
      (scaledProduct (V c main_v28) (V c main_arg1) (V c main_v29) (V c main_v14)) := by
  show (cfg1.win 4).cut (grid1.coords t) ((dat1 V c).after 4 t) = _
  rw [after1_4]
  unfold out1_4
  rw [View.canon_unit_zero origin]
  simp only [View.ld_unit_zero (S := S5000x128) origin, View.ld_unit_zero (S := S5000x1) origin,
    View.ld_unit_zero (S := S128x128) origin, View.ld_unit_zero (S := S1x128) origin]
  obtain ⟨e00, e01, e10, e11, e20, e21, e30, e31, e40, e41, ht⟩ := index_facts t
  funext j
  obtain ⟨p, q, rfl⟩ : ∃ (p : Fin 5000) (q : Fin 128), j = ix2 p q := ⟨j 0, j 1, eq_ix2 (n0 := 5000) (n1 := 128) j⟩
  have hP : t.val * 5000 + p.val < 50000 := by omega
  have h4 : ((cfg1.win 4).blk t).view.emb (ix2 p q) = ix2 (⟨t.val * 5000 + p.val, hP⟩ : Fin 50000) q := by
    funext a; apply Fin.ext
    match a with
    | ⟨0, _⟩ => show win1_4.index t (0 : Fin 2) * 5000 + 1 * p.val = t.val * 5000 + p.val; omega
    | ⟨1, _⟩ => show win1_4.index t (1 : Fin 2) * 128 + 1 * q.val = q.val; omega
  have h0 : ∀ k : Fin 128, ((cfg1.win 0).blk t).view.emb (ix2 p k) = ix2 (⟨t.val * 5000 + p.val, hP⟩ : Fin 50000) k := fun k => by
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  have h1 : ∀ k : Fin 128, ((cfg1.win 1).blk t).view.emb (ix2 k q) = ix2 k q := fun k => by
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 128 + 1 * q.val = q.val; omega
  have h3 : ((cfg1.win 3).blk t).view.emb (ix2 p (0 : Fin 1)) = ix2 (⟨t.val * 5000 + p.val, hP⟩ : Fin 50000) (0 : Fin 1) := by
    funext a; apply Fin.ext
    match a with
    | ⟨0, _⟩ => show win1_3.index t (0 : Fin 2) * 5000 + 1 * p.val = t.val * 5000 + p.val; omega
    | ⟨1, _⟩ => show win1_3.index t (1 : Fin 2) * 1 + 1 * 0 = 0; omega
  show k1_pay1 (iblk1 V c 0 t) (iblk1 V c 1 t) (iblk1 V c 3 t) (iblk1 V c 2 t) (ix2 p q)
    = scaledProduct (V c main_v28) (V c main_arg1) (V c main_v29) (V c main_v14) (((cfg1.win 4).blk t).view.emb (ix2 p q))
  rw [h4]
  refine point (V c main_v28) (V c main_arg1) (V c main_v29) (V c main_v14) (iblk1 V c 0 t) (iblk1 V c 1 t) (iblk1 V c 2 t) (iblk1 V c 3 t)
    p q ⟨t.val * 5000 + p.val, hP⟩ (fun k => ?_) (fun k => ?_) ?_ ?_
  · show V c main_v28 (((cfg1.win 0).blk t).view.emb (ix2 p k)) = _
    rw [h0 k]
  · show V c main_arg1 (((cfg1.win 1).blk t).view.emb (ix2 k q)) = _
    rw [h1 k]
  · show V c main_v29 (((cfg1.win 2).blk t).view.emb (ix2 (0 : Fin 1) q)) = _
    rw [h2]
  · show V c main_v14 (((cfg1.win 3).blk t).view.emb (ix2 p (0 : Fin 1))) = _
    rw [h3]

/-- An index is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v30).slice (win1_4.rect t)).set ↔ _
  rw [View.set_slice_whole, Rect.mem_set_unit]
  exact Iff.rfl

/-- Row `r` lies in the block of point `r / 5000`: the ten blocks cover the array. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨_, _, _, _, _, _, _, _, e40, e41, _⟩ := index_facts ⟨(i 0).val / 5000, ht⟩
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e41]; omega

/-- THE OUTPUT ARRAY after the ten points: the whole-array form, everywhere. -/
theorem final (c : Dev nD) : (dat1 V c).arrAt 4 cfg1.N
    = scaledProduct (V c main_v28) (V c main_arg1) (V c main_v29) (V c main_v14) :=
  (dat1 V c).arrAt_eq_of_cover 4 _ (fun t _ => flushed_eq V c t) cover

end Cert.KernelIdeal.ProductRows

end
-- ==== Proof.HostChain.lean ====
/-
  The host operations of the kernel's program, read between its two pipelines.

  Before the first pipeline the program computes, from each index list, the degree scale: the number of edges at each
  node (a scatter-add of ones into zeros), clipped below at 1, raised to the power -1/2; the source-side scale is laid
  as a `[50000, 1]` column for the first pipeline and the destination-side one for the second. Between the two pipelines
  it gathers the scaled feature rows at the edges' sources (negative indices wrapped by 50000), multiplies each by its
  edge weight and scatter-adds them at the edges' destinations; the bias is laid as a `[1, 128]` row. None of these
  operations writes an argument array, and the first pipeline writes only its own output.

  So the result array, which the second pipeline writes, is: the whole-array form of the second pipeline applied to the
  aggregate of the first pipeline's scaled rows — `kernelValue` of the six arguments.
-/
import proofs.«123008_j16612933501110_1_alg».proof.Proof.Gen.KernelIdeal.Frame
import proofs.«123008_j16612933501110_1_alg».proof.Proof.ScaledRows
import proofs.«123008_j16612933501110_1_alg».proof.Proof.ProductRows
import Idealize.ShloMosaic.Lib.StableHlo.Run

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo

section AnyInstance

variable {F : FTy → Type} [FloatOps F]

/-- The degree scale of an index list: edge counts per node, clipped below at 1, to the power -1/2. -/
def degreeScale (idx : (⟨S800000, .i32⟩ : BufTy).Contents (Elt F)) : (⟨S50000, .f32⟩ : BufTy).Contents (Elt F) :=
  Host.powf
    (maximumf (broadcastInDim S50000 ![] bcast_S_S50000 (id (constant S_ .f32 0x3F800000#32)))
      (Host.scatterAdd scatter_S50000_S800000x1_S800000_n_0_0_1
        (broadcastInDim S50000 ![] bcast_S_S50000 (constant S_ .f32 0x00000000#32))
        (broadcastInDim S800000x1 ![0] bcast_S800000_S800000x1_0 idx)
        (broadcastInDim S800000 ![] bcast_S_S800000 (constant S_ .f32 0x3F800000#32))))
    (broadcastInDim S50000 ![] bcast_S_S50000 (constant S_ .f32 0xBF000000#32))

/-- The edge aggregation: rows of `xs` gathered at the sources (a negative index wrapped by 50000), each times its edge
    weight, summed at the destinations. -/
def aggregate (xs : (⟨S50000x128, .f32⟩ : BufTy).Contents (Elt F)) (ew : (⟨S800000, .f32⟩ : BufTy).Contents (Elt F))
    (src dst : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf
      (Host.gather gather_S50000x128_S800000x1_S800000x128_1_0_n_n_0_1_1128 xs
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x128 ![0, 1] bcast_S800000x1_S800000x128_0_1
        (broadcastInDim S800000x1 ![0] bcast_S800000_S800000x1_0 ew)))

variable (m : (ℓ : Loc nD τ sig) → Buf (Elt F) ℓ) (ρ : Dev nD → PrngReg)

/-! ## At the first pipeline's entry -/

theorem entry0_feat (c : Dev nD) : V5 m ρ c main_arg0 = m ((c.tc : Thread nD τ).loc main_arg0) := by
  show StableHlo.after hostOps0_4 (StableHlo.after hostOps0_3 (StableHlo.after hostOps0_2 (StableHlo.after hostOps0_1
    (StableHlo.after hostOps0 (W0 m ρ c))))) (Proc.devRef .tc main_arg0) = _
  after_results_simp <;> rfl

theorem entry0_scale (c : Dev nD) : V5 m ρ c main_v11
    = shapeCast S50000x1 (degreeScale (m ((c.tc : Thread nD τ).loc main_arg4))) shapeCasts_S50000_S50000x1 := by
  show StableHlo.after hostOps0_4 (StableHlo.after hostOps0_3 (StableHlo.after hostOps0_2 (StableHlo.after hostOps0_1
    (StableHlo.after hostOps0 (W0 m ρ c))))) (Proc.devRef .tc main_v11) = _
  after_results_simp <;> rfl

/-- What the first pipeline's entry holds at a buffer the first pipeline does not write is what its exit holds. -/
theorem entry0_dstScale (c : Dev nD) : W5 m ρ c (Proc.devRef .tc main_v14)
    = shapeCast S50000x1 (degreeScale (m ((c.tc : Thread nD τ).loc main_arg5))) shapeCasts_S50000_S50000x1 := by
  show StableHlo.after hostOps0_4 (StableHlo.after hostOps0_3 (StableHlo.after hostOps0_2 (StableHlo.after hostOps0_1
    (StableHlo.after hostOps0 (W0 m ρ c))))) (Proc.devRef .tc main_v14) = _
  after_results_simp <;> rfl

theorem entry0_arg (c : Dev nD) (b : Ref sig .tc) (hb : b = main_arg1 ∨ b = main_arg2 ∨ b = main_arg3 ∨ b = main_arg4 ∨ b = main_arg5) :
    W5 m ρ c (Proc.devRef .tc b) = m ((c.tc : Thread nD τ).loc b) := by
  show StableHlo.after hostOps0_4 (StableHlo.after hostOps0_3 (StableHlo.after hostOps0_2 (StableHlo.after hostOps0_1
    (StableHlo.after hostOps0 (W0 m ρ c))))) (Proc.devRef .tc b) = _
  rcases hb with rfl | rfl | rfl | rfl | rfl <;> after_results_simp <;> rfl

/-! ## Between the pipelines -/

theorem mid_arg (c : Dev nD) (b : Ref sig .tc) (hb : b = main_arg1 ∨ b = main_arg2 ∨ b = main_arg3 ∨ b = main_arg4 ∨ b = main_arg5) :
    W6 m ρ c (Proc.devRef .tc b) = m ((c.tc : Thread nD τ).loc b) := by
  refine (W6_of_ne m ρ c b ?_).trans (entry0_arg m ρ c b hb)
  rcases hb with rfl | rfl | rfl | rfl | rfl <;> decide

theorem mid_dstScale (c : Dev nD) : W6 m ρ c (Proc.devRef .tc main_v14)
    = shapeCast S50000x1 (degreeScale (m ((c.tc : Thread nD τ).loc main_arg5))) shapeCasts_S50000_S50000x1 :=
  (W6_of_ne m ρ c main_v14 (by decide)).trans (entry0_dstScale m ρ c)

/-! ## At the second pipeline's entry -/

theorem entry1_agg (c : Dev nD) : V7 m ρ c main_v28
    = aggregate (W6 m ρ c (Proc.devRef .tc main_v15)) (W6 m ρ c (Proc.devRef .tc main_arg3))
        (W6 m ρ c (Proc.devRef .tc main_arg4)) (W6 m ρ c (Proc.devRef .tc main_arg5)) := by
  show StableHlo.after hostOps1 (W6 m ρ c) (Proc.devRef .tc main_v28) = _
  after_results_simp <;> rfl

theorem entry1_weights (c : Dev nD) : V7 m ρ c main_arg1 = W6 m ρ c (Proc.devRef .tc main_arg1) := by
  show StableHlo.after hostOps1 (W6 m ρ c) (Proc.devRef .tc main_arg1) = _
  after_results_simp <;> rfl

theorem entry1_bias (c : Dev nD) : V7 m ρ c main_v29
    = shapeCast S1x128 (W6 m ρ c (Proc.devRef .tc main_arg2)) shapeCasts_S128_S1x128 := by
  show StableHlo.after hostOps1 (W6 m ρ c) (Proc.devRef .tc main_v29) = _
  after_results_simp <;> rfl

theorem entry1_scale (c : Dev nD) : V7 m ρ c main_v14 = W6 m ρ c (Proc.devRef .tc main_v14) := by
  show StableHlo.after hostOps1 (W6 m ρ c) (Proc.devRef .tc main_v14) = _
  after_results_simp <;> rfl

end AnyInstance

/-! ## The result array, at the extended reals -/

section Ideal

open Cert.KernelIdeal.ScaledRows Cert.KernelIdeal.ProductRows

/-- The program's result as one function of its six arguments. -/
def kernelValue (x0 : FVec Ideal S50000x128 .f32) (x1 : FVec Ideal S128x128 .f32) (x2 : FVec Ideal S128 .f32)
    (x3 : FVec Ideal S800000 .f32) (x4 x5 : (⟨S800000, .i32⟩ : BufTy).Contents (Elt Ideal)) : FVec Ideal S50000x128 .f32 :=
  scaledProduct
    (aggregate (rowScaled x0 (shapeCast S50000x1 (degreeScale x4) shapeCasts_S50000_S50000x1)) x3 x4 x5)
    x1 (shapeCast S1x128 x2 shapeCasts_S128_S1x128)
    (shapeCast S50000x1 (degreeScale x5) shapeCasts_S50000_S50000x1)

variable (m : (ℓ : Loc nD τ sig) → Buf (Elt Ideal) ℓ) (ρ : Dev nD → PrngReg)

/-- The first pipeline's output array, as the second stretch of host operations finds it. -/
theorem mid_scaled (c : Dev nD) : W6 m ρ c (Proc.devRef .tc main_v15)
    = rowScaled (m ((c.tc : Thread nD τ).loc main_arg0))
        (shapeCast S50000x1 (degreeScale (m ((c.tc : Thread nD τ).loc main_arg4))) shapeCasts_S50000_S50000x1) := by
  rw [← entry0_feat m ρ c, ← entry0_scale m ρ c]
  exact (W6_arr m ρ c 2).trans (ScaledRows.final (V5 m ρ) c)

/-- THE RESULT: what the last boundary holds at the result buffer is `kernelValue` of the launch's arguments. -/
theorem result_eq (c : Dev nD) : W8 m ρ c (Proc.devRef .tc main_v30)
    = kernelValue (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (W8_arr m ρ c 4).trans ((ProductRows.final (V7 m ρ) c).trans ?_)
  rw [entry1_agg, entry1_weights, entry1_bias, entry1_scale, mid_scaled, mid_dstScale,
    mid_arg m ρ c main_arg1 (Or.inl rfl), mid_arg m ρ c main_arg2 (Or.inr (Or.inl rfl)),
    mid_arg m ρ c main_arg3 (Or.inr (Or.inr (Or.inl rfl))), mid_arg m ρ c main_arg4 (Or.inr (Or.inr (Or.inr (Or.inl rfl)))),
    mid_arg m ρ c main_arg5 (Or.inr (Or.inr (Or.inr (Or.inr rfl))))]
  rfl

end Ideal

end Cert.KernelIdeal.HostChain

end
-- ==== Proof.Bridge.lean ====
/-
  The kernel's result function is the reference's last stage, at the extended reals.

  Both programs compute `((A · W) ⊙ d_in + b)` with `A = scatter-add over destinations of (x ⊙ d_out)[src] ⊙ w_e`, the
  same operations in the same order; they differ only in how three small arrays are LAID OUT: the kernel reshapes the
  two degree scales to `[50000, 1]` columns and the bias to a `[1, 128]` row, where the reference places them by
  `broadcast_in_dim`. A reshape of a vector to a column (row) and its placement along axis 0 (axis 1) are one array, so
  after rewriting the three layouts the two terms coincide, stage by stage of the reference:
  the source-scaled features (stage `%9`), the aggregate (stage `%22`), and the result (stage `%35`).
-/
import proofs.«123008_j16612933501110_1_alg».proof.Proof.HostChain
import proofs.«123008_j16612933501110_1_alg».proof.Proof.Gen.ReferenceIdeal.Read
import proofs.«123008_j16612933501110_1_alg».proof.Proof.LibColumns

set_option maxRecDepth 16384

noncomputable section

namespace Cert.Bridge

open Idealize.ShloMosaic Cert.Lib
open Cert.KernelIdeal.HostChain Cert.KernelIdeal.ScaledRows Cert.KernelIdeal.ProductRows

abbrev Feat := FVec Ideal Cert.KernelIdeal.S50000x128 .f32
abbrev Wts := FVec Ideal Cert.KernelIdeal.S128x128 .f32
abbrev Bias := FVec Ideal Cert.KernelIdeal.S128 .f32
abbrev EdgeW := FVec Ideal Cert.KernelIdeal.S800000 .f32
abbrev EdgeIx := (⟨Cert.KernelIdeal.S800000, .i32⟩ : BufTy).Contents (Elt Ideal)

/-- The degree scale is the reference's power stage (of either index list). -/
theorem degreeScale_src (x4 : EdgeIx) : degreeScale (F := Ideal) x4 = Cert.ReferenceIdeal.Read.val_main_v6 (F := Ideal) x4 := rfl
theorem degreeScale_dst (x5 : EdgeIx) : degreeScale (F := Ideal) x5 = Cert.ReferenceIdeal.Read.val_main_v29 (F := Ideal) x5 := rfl

/-- The first pipeline's scaled rows are the reference's stage `%9`. -/
theorem scaled_eq (x0 : Feat) (x4 : EdgeIx) :
    rowScaled x0 (shapeCast Cert.KernelIdeal.S50000x1 (degreeScale x4) Cert.KernelIdeal.Facts₀.shapeCasts_S50000_S50000x1)
      = Cert.ReferenceIdeal.Read.val_main_v9 (F := Ideal) x0 x4 := by
  unfold rowScaled
  rw [Columns.columnCast_eq_inDim (A := 50000) (degreeScale x4) _ Cert.ReferenceIdeal.Facts₀.bcast_S50000_S50000x1_0 (by decide)]
  rfl

/-- The aggregate of the reference's stage `%9` is its stage `%22`. -/
theorem aggregate_eq (x0 : Feat) (x3 : EdgeW) (x4 x5 : EdgeIx) :
    aggregate (F := Ideal) (Cert.ReferenceIdeal.Read.val_main_v9 (F := Ideal) x0 x4) x3 x4 x5
      = Cert.ReferenceIdeal.Read.val_main_v22 (F := Ideal) x0 x3 x4 x5 := rfl

/-- THE BRIDGE: the kernel's result function is the reference's result stage. -/
theorem kernelValue_eq (x0 : Feat) (x1 : Wts) (x2 : Bias) (x3 : EdgeW) (x4 x5 : EdgeIx) :
    kernelValue x0 x1 x2 x3 x4 x5 = Cert.ReferenceIdeal.Read.val_main_v35 (F := Ideal) x0 x1 x2 x3 x4 x5 := by
  unfold kernelValue
  rw [scaled_eq, aggregate_eq]
  unfold scaledProduct
  rw [Columns.columnCast_eq_inDim (A := 50000) (degreeScale x5) _ Cert.ReferenceIdeal.Facts₀.bcast_S50000_S50000x1_0 (by decide),
    Columns.rowCast_eq_inDim (B := 128) x2 _ Cert.ReferenceIdeal.Facts₀.bcast_S128_S1x128_1 (by decide)]
  rfl

end Cert.Bridge

end
-- ==== Proof.lean ====
/-
  The kernel against its reference: a graph convolution with symmetric degree normalisation.

  With `d_out = max(1, #edges leaving a node)^(-1/2)` and `d_in = max(1, #edges entering a node)^(-1/2)`, both programs
  compute `((A · W) ⊙ d_in + b)`, where `A` sums, over the edges into a node, the source's feature row scaled by `d_out`
  and by the edge's weight. The kernel runs the two dense steps as pipelines of ten row blocks (the row scaling
  `x ⊙ d_out`, and the product with the destination scaling and the bias, its operands narrowed to bf16 — the identity
  on extended reals) and leaves the degree counts, the gather and the scatter-add to the host, exactly as the reference
  has them. A row of a matrix product depends only on the same row of the left factor, so the blocked product is the
  whole product; no law of arithmetic is used and the finiteness of the inputs is not needed.

  The frames of the two kernel programs are the generated ones; the reference's frame is its generated run. The value
  of the kernel's result is read off the frame run (Proof/KernelRun, Proof/ScaledRows, Proof/ProductRows,
  Proof/HostChain) and identified with the reference's last stage (Proof/Bridge).
-/
import proofs.«123008_j16612933501110_1_alg».proof.Defs
import proofs.«123008_j16612933501110_1_alg».proof.Proof.Gen.Kernel
import proofs.«123008_j16612933501110_1_alg».proof.Proof.Gen.Kernel.Skeleton
import proofs.«123008_j16612933501110_1_alg».proof.Proof.Gen.Kernel.Launch
import proofs.«123008_j16612933501110_1_alg».proof.Proof.Gen.Kernel.Points
import proofs.«123008_j16612933501110_1_alg».proof.Proof.Gen.Kernel.Frame
import proofs.«123008_j16612933501110_1_alg».proof.Proof.Gen.KernelIdeal
import proofs.«123008_j16612933501110_1_alg».proof.Proof.Gen.KernelIdeal.Skeleton
import proofs.«123008_j16612933501110_1_alg».proof.Proof.Gen.KernelIdeal.Launch
import proofs.«123008_j16612933501110_1_alg».proof.Proof.Gen.KernelIdeal.Points
import proofs.«123008_j16612933501110_1_alg».proof.Proof.Gen.KernelIdeal.Frame
import proofs.«123008_j16612933501110_1_alg».proof.Proof.Gen.ReferenceIdeal
import proofs.«123008_j16612933501110_1_alg».proof.Proof.Gen.ReferenceIdeal.Run
import proofs.«123008_j16612933501110_1_alg».proof.Proof.Gen.ReferenceIdeal.Read
import proofs.«123008_j16612933501110_1_alg».proof.Proof.Gen.Pre_finite_inputs
import proofs.«123008_j16612933501110_1_alg».proof.Proof.KernelRun
import proofs.«123008_j16612933501110_1_alg».proof.Proof.HostChain
import proofs.«123008_j16612933501110_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the reference's last stage of the arguments. -/
theorem algebraic : Cert.algebraic_KernelIdeal_ReferenceIdeal := by
  intro m ρ m' ρ' _ hagree
  refine ⟨fun c => Cert.KernelIdeal.HostChain.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.HostChain.result_eq m ρ c), (h c).2⟩)
      (Cert.KernelIdeal.Gen.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v35_eq, (hagree c).1, (hagree c).2.1, (hagree c).2.2.1,
      (hagree c).2.2.2.1, (hagree c).2.2.2.2.1, (hagree c).2.2.2.2.2]
    exact (Cert.Bridge.kernelValue_eq _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
